-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x16 : Shape := ⟨2, ![800000, 16]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S10 .f32) (main_v33 : IVec S_ 1) : IVec S_ 1 :=
  let main_v34 : FVec F S10 .f32 := Host.absf main_arg9
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  main_v38

def fn_part1 {F : FTy → Type} [FloatOps F] (main_arg6 : FVec F S64x64 .f32) (main_arg7 : FVec F S64 .f32) (main_arg8 : FVec F S64x10 .f32) (main_arg9 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x10 .f32 := Host.absf main_arg8
  let main_cst_10 : FVec F S_ .f32 := constant S_ .f32 0x7F800000#32
  let main_v30 : FVec F S64x10 .f32 := broadcastInDim S64x10 ![] bcast_S_S64x10 main_cst_10
  let main_v31 : IVec S64x10 1 := cmpf .olt main_v29 main_v30
  let main_c_11 : IVec S_ 1 := constantI S_ 1 1#1
  let main_v32 : IVec S_ 1 := (fun x v => Host.reduce IntOp.andi x v reducesTo_S64x10_S_d0_1 h_S_) main_v31 main_c_11
  let main_v33 : IVec S_ 1 := andi main_v28 main_v32
  fn_part2 (F := F) main_arg9 main_v33

def fn {F : FTy → Type} [FloatOps F] (main_arg0 : FVec F S50000x128 .f32) (main_arg1 : IVec S2x800000 32) (main_arg2 : FVec F S800000x16 .f32) (main_arg3 : IVec S50000 32) (main_arg4 : FVec F S128x64 .f32) (main_arg5 : FVec F S64 .f32) (main_arg6 : FVec F S64x64 .f32) (main_arg7 : FVec F S64 .f32) (main_arg8 : FVec F S64x10 .f32) (main_arg9 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_v13 main_v16
-- ==== Kernel.lean ====
abbrev S50000x128 : Shape := ⟨2, ![50000, 128]⟩
abbrev S2x800000 : Shape := ⟨2, ![2, 800000]⟩
abbrev S800000x16 : Shape := ⟨2, ![800000, 16]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S50000x64 : Shape := ⟨2, ![50000, 64]⟩
abbrev S10000x128 : Shape := ⟨2, ![10000, 128]⟩
abbrev S10000x64 : Shape := ⟨2, ![10000, 64]⟩
abbrev S800000x64 : Shape := ⟨2, ![800000, 64]⟩
abbrev S1x64 : Shape := ⟨2, ![1, 64]⟩
abbrev S10000x1 : Shape := ⟨2, ![10000, 1]⟩
abbrev S256 : Shape := ⟨1, ![256]⟩
abbrev S256x64 : Shape := ⟨2, ![256, 64]⟩
abbrev S256x1 : Shape := ⟨2, ![256, 1]⟩
abbrev S1x10 : Shape := ⟨2, ![1, 10]⟩
abbrev S256x10 : Shape := ⟨2, ![256, 10]⟩

abbrev nBuf : Space → Nat
  | .hbm => 120
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x16, .f32⟩
  | .hbm, ⟨3, _⟩ => ⟨S50000, .i32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x10, .f32⟩
  | .hbm, ⟨9, _⟩ => ⟨S10, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S50000x64, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000, .f32⟩
  | .hbm, ⟨45, _⟩ => ⟨S800000, .f32⟩
  | .hbm, ⟨46, _⟩ => ⟨S800000x1, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x64, .f32⟩
  | .hbm, ⟨56, _⟩ => ⟨S800000x64, .f32⟩
  | .hbm, ⟨57, _⟩ => ⟨S800000x64, .f32⟩
  | .hbm, ⟨58, _⟩ => ⟨S_, .f32⟩
  | .hbm, ⟨59, _⟩ => ⟨S50000x64, .f32⟩
  | .hbm, ⟨60, _⟩ => ⟨S800000x1, .i32⟩
  | .hbm, ⟨61, _⟩ => ⟨S50000x64, .f32⟩
  | .hbm, ⟨62, _⟩ => ⟨S1x64, .f32⟩
  | .hbm, ⟨63, _⟩ => ⟨S50000x64, .f32⟩
  | .hbm, ⟨64, _⟩ => ⟨S50000x64, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000, .f32⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S800000, .f32⟩
  | .hbm, ⟨83, _⟩ => ⟨S800000, .f32⟩
  | .hbm, ⟨84, _⟩ => ⟨S800000x1, .f32⟩
  | .hbm, ⟨85, _⟩ => ⟨S_, .i32⟩
  | .hbm, ⟨86, _⟩ => ⟨S800000, .i32⟩
  | .hbm, ⟨87, _⟩ => ⟨S800000, .i1⟩
  | .hbm, ⟨88, _⟩ => ⟨S_, .i32⟩
  | .hbm, ⟨89, _⟩ => ⟨S800000, .i32⟩
  | .hbm, ⟨90, _⟩ => ⟨S800000, .i32⟩
  | .hbm, ⟨91, _⟩ => ⟨S800000, .i32⟩
  | .hbm, ⟨92, _⟩ => ⟨S800000x1, .i32⟩
  | .hbm, ⟨93, _⟩ => ⟨S800000x64, .f32⟩
  | .hbm, ⟨94, _⟩ => ⟨S800000x64, .f32⟩
  | .hbm, ⟨95, _⟩ => ⟨S800000x64, .f32⟩
  | .hbm, ⟨96, _⟩ => ⟨S_, .f32⟩
  | .hbm, ⟨97, _⟩ => ⟨S50000x64, .f32⟩
  | .hbm, ⟨98, _⟩ => ⟨S800000x1, .i32⟩
  | .hbm, ⟨99, _⟩ => ⟨S50000x64, .f32⟩
  | .hbm, ⟨100, _⟩ => ⟨S1x64, .f32⟩
  | .hbm, ⟨101, _⟩ => ⟨S50000x64, .f32⟩
  | .hbm, ⟨102, _⟩ => ⟨S_, .f32⟩
  | .hbm, ⟨103, _⟩ => ⟨S50000, .f32⟩
  | .hbm, ⟨104, _⟩ => ⟨S_, .f32⟩
  | .hbm, ⟨105, _⟩ => ⟨S256, .f32⟩
  | .hbm, ⟨106, _⟩ => ⟨S50000x1, .i32⟩
  | .hbm, ⟨107, _⟩ => ⟨S256, .f32⟩
  | .hbm, ⟨108, _⟩ => ⟨S_, .f32⟩
  | .hbm, ⟨109, _⟩ => ⟨S256x64, .f32⟩
  | .hbm, ⟨110, _⟩ => ⟨S50000x1, .i32⟩
  | .hbm, ⟨111, _⟩ => ⟨S256x64, .f32⟩
  | .hbm, ⟨112, _⟩ => ⟨S_, .f32⟩
  | .hbm, ⟨113, _⟩ => ⟨S256, .f32⟩
  | .hbm, ⟨114, _⟩ => ⟨S256, .f32⟩
  | .hbm, ⟨115, _⟩ => ⟨S256x1, .f32⟩
  | .hbm, ⟨116, _⟩ => ⟨S256x64, .f32⟩
  | .hbm, ⟨117, _⟩ => ⟨S256x64, .f32⟩
  | .hbm, ⟨118, _⟩ => ⟨S1x10, .f32⟩
  | .hbm, ⟨119, _⟩ => ⟨S256x10, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S256x64, .f32⟩
  | .local _ .vmem, ⟨29, _⟩ => ⟨S64x10, .f32⟩
  | .local _ .vmem, ⟨30, _⟩ => ⟨S1x10, .f32⟩
  | .local _ .vmem, ⟨31, _⟩ => ⟨S256x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_8 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_14 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_15 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_17 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_18 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem1_0 : DmaSem sig := 29
abbrev cc4_sem2_0 : DmaSem sig := 30
abbrev cc4_sem3_0 : DmaSem sig := 31

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S256x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x10 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  bcast_S_S256 : S_.BroadcastsInDim S256 (![] : Fin 0 → Fin S256.rank)
  bcast_S50000_S50000x1_0 : S50000.BroadcastsInDim S50000x1 (![0] : Fin 1 → Fin S50000x1.rank)
  bcast_S_S256x64 : S_.BroadcastsInDim S256x64 (![] : Fin 0 → Fin S256x64.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  shapeCasts_S10_S1x10 : S10.ShapeCasts S1x10
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S256x10 : S1x10.Broadcasts S256x10
  inb_S256x10_S256x10_0_0 : ∀ a, (![0, 0] : Fin 2 → Nat) a + S256x10.size a ≤ S256x10.size a
  h_S256x10 : 0 < S256x10.numel
  scatter_S50000_S800000x1_S800000_n_0_0_1_wf : ScatterDims.WF S50000 S800000x1 S800000 [] [0] [0] 1
  dot_S10000x128_S128x64_S10000x64_1_0_0_1_n_n_wf : DotDims.WF S10000x128 S128x64 S10000x64 [1] [0] [0] [1] [] []
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S10000x64_S64x64_S10000x64_1_0_0_1_n_n_wf : DotDims.WF S10000x64 S64x64 S10000x64 [1] [0] [0] [1] [] []
  scatter_S256_S50000x1_S50000_n_0_0_1_wf : ScatterDims.WF S256 S50000x1 S50000 [] [0] [0] 1
  scatter_S256x64_S50000x1_S50000x64_1_0_0_1_wf : ScatterDims.WF S256x64 S50000x1 S50000x64 [1] [0] [0] 1
  dot_S256x64_S64x10_S256x10_1_0_0_1_n_n_wf : DotDims.WF S256x64 S64x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .f32 = 32 ∨ (Rect.block (s := S50000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S50000x1.size a
  hwx1_2 : ∀ i : grid1.Coords, EltTy.bits .f32 = 32 ∨ (Rect.block (s := S50000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S50000x64.size a
  hwx1_4 : ∀ i : grid1.Coords, EltTy.bits .f32 = 32 ∨ (Rect.block (s := S50000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S50000x64.size a
  hwx2_2 : ∀ i : grid2.Coords, EltTy.bits .f32 = 32 ∨ (Rect.block (s := S50000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S50000x64.size a
  hwx3_1 : ∀ i : grid3.Coords, EltTy.bits .f32 = 32 ∨ (Rect.block (s := S50000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S50000x1.size a
  hwx3_2 : ∀ i : grid3.Coords, EltTy.bits .f32 = 32 ∨ (Rect.block (s := S50000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S50000x64.size a
  hwx3_4 : ∀ i : grid3.Coords, EltTy.bits .f32 = 32 ∨ (Rect.block (s := S50000x64) S10000x64.size (cc3_transform_4 i) (hinb3_4 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S256x64.size a ≤ S256x64.size a
  hwx4_0 : ∀ i : grid4.Coords, EltTy.bits .f32 = 32 ∨ (Rect.block (s := S256x64) S256x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x10.size a ≤ S64x10.size a
  hwx4_1 : ∀ i : grid4.Coords, EltTy.bits .f32 = 32 ∨ (Rect.block (s := S64x10) S64x10.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x10.size a ≤ S1x10.size a
  hwx4_2 : ∀ i : grid4.Coords, EltTy.bits .f32 = 32 ∨ (Rect.block (s := S1x10) S1x10.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x10.size a ≤ S256x10.size a
  hwx4_3 : ∀ i : grid4.Coords, EltTy.bits .f32 = 32 ∨ (Rect.block (s := S256x10) S256x10.size (cc4_transform_3 i) (hinb4_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def dot_S256x64_S64x10_S256x10_1_0_0_1_n_n : DotDims S256x64 S64x10 S256x10 where
  lhsContracting := [1]
  rhsContracting := [0]
  lhsNonContracting := [0]
  rhsNonContracting := [1]
  lhsBatch := []
  rhsBatch := []
  wf := dot_S256x64_S64x10_S256x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v72) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v73) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v86) S256x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S64x10.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v87) S1x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v88) S256x10.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x16 : Shape := ⟨2, ![800000, 16]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x64 : Shape := ⟨2, ![50000, 64]⟩
abbrev S800000x64 : Shape := ⟨2, ![800000, 64]⟩
abbrev S50000x1 : Shape := ⟨2, ![50000, 1]⟩
abbrev S1x64 : Shape := ⟨2, ![1, 64]⟩
abbrev S256 : Shape := ⟨1, ![256]⟩
abbrev S256x64 : Shape := ⟨2, ![256, 64]⟩
abbrev S256x1 : Shape := ⟨2, ![256, 1]⟩
abbrev S256x10 : Shape := ⟨2, ![256, 10]⟩
abbrev S1x10 : Shape := ⟨2, ![1, 10]⟩

abbrev nBuf : Space → Nat
  | .hbm => 135
  | .vmem => 0
  | .smem => 0
  | _ => 0

abbrev hbmTy0_0 (i : Nat) : BufTy := match i % 128 with
  | 0 => ⟨S50000x128, .f32⟩
  | 1 => ⟨S2x800000, .i32⟩
  | 2 => ⟨S800000x16, .f32⟩
  | 3 => ⟨S50000, .i32⟩
  | 4 => ⟨S128x64, .f32⟩
  | 5 => ⟨S64, .f32⟩
  | 6 => ⟨S64x64, .f32⟩
  | 7 => ⟨S64, .f32⟩
  | 8 => ⟨S64x10, .f32⟩
  | 9 => ⟨S10, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .f32⟩
  | 23 => ⟨S50000, .f32⟩
  | 24 => ⟨S50000x64, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S800000, .f32⟩
  | 44 => ⟨S800000x1, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x64, .f32⟩
  | 54 => ⟨S800000x64, .f32⟩
  | 55 => ⟨S800000x64, .f32⟩
  | 56 => ⟨S_, .f32⟩
  | 57 => ⟨S50000x64, .f32⟩
  | 58 => ⟨S800000x1, .i32⟩
  | 59 => ⟨S50000x64, .f32⟩
  | 60 => ⟨S50000, .f32⟩
  | 61 => ⟨S50000x1, .f32⟩
  | 62 => ⟨S50000x64, .f32⟩
  | 63 => ⟨S50000x64, .f32⟩
  | 64 => ⟨S50000x64, .f32⟩
  | 65 => ⟨S1x64, .f32⟩
  | 66 => ⟨S50000x64, .f32⟩
  | 67 => ⟨S50000x64, .f32⟩
  | 68 => ⟨S_, .f32⟩
  | 69 => ⟨S50000x64, .f32⟩
  | 70 => ⟨S50000x64, .f32⟩
  | 71 => ⟨S50000x64, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000, .f32⟩
  | 90 => ⟨S800000, .f32⟩
  | 91 => ⟨S800000x1, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x64, .f32⟩
  | 101 => ⟨S800000x64, .f32⟩
  | 102 => ⟨S800000x64, .f32⟩
  | 103 => ⟨S_, .f32⟩
  | 104 => ⟨S50000x64, .f32⟩
  | 105 => ⟨S800000x1, .i32⟩
  | 106 => ⟨S50000x64, .f32⟩
  | 107 => ⟨S50000, .f32⟩
  | 108 => ⟨S50000x1, .f32⟩
  | 109 => ⟨S50000x64, .f32⟩
  | 110 => ⟨S50000x64, .f32⟩
  | 111 => ⟨S50000x64, .f32⟩
  | 112 => ⟨S1x64, .f32⟩
  | 113 => ⟨S50000x64, .f32⟩
  | 114 => ⟨S50000x64, .f32⟩
  | 115 => ⟨S_, .f32⟩
  | 116 => ⟨S50000, .f32⟩
  | 117 => ⟨S_, .f32⟩
  | 118 => ⟨S256, .f32⟩
  | 119 => ⟨S50000x1, .i32⟩
  | 120 => ⟨S256, .f32⟩
  | 121 => ⟨S_, .f32⟩
  | 122 => ⟨S256x64, .f32⟩
  | 123 => ⟨S50000x1, .i32⟩
  | 124 => ⟨S256x64, .f32⟩
  | 125 => ⟨S_, .f32⟩
  | 126 => ⟨S256, .f32⟩
  | 127 => ⟨S256, .f32⟩
  | _ => ⟨S50000x128, .f32⟩

abbrev hbmTy0_1 (i : Nat) : BufTy := match i % 128 with
  | 0 => ⟨S256x1, .f32⟩
  | 1 => ⟨S256x64, .f32⟩
  | 2 => ⟨S256x64, .f32⟩
  | 3 => ⟨S256x10, .f32⟩
  | 4 => ⟨S1x10, .f32⟩
  | 5 => ⟨S256x10, .f32⟩
  | 6 => ⟨S256x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call0_cst : Ref sig .tc := ⟨.hbm, 68, rfl⟩
abbrev main_call0_v0 : Ref sig .tc := ⟨.hbm, 69, rfl⟩
abbrev main_v48 : Ref sig .tc := ⟨.hbm, 70, rfl⟩
abbrev main_v49 : Ref sig .tc := ⟨.hbm, 71, rfl⟩
abbrev main_c_8 : Ref sig .tc := ⟨.hbm, 72, rfl⟩
abbrev main_v50 : Ref sig .tc := ⟨.hbm, 73, rfl⟩
abbrev main_v51 : Ref sig .tc := ⟨.hbm, 74, rfl⟩
abbrev main_c_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_10 : Ref sig .tc := ⟨.hbm, 81, rfl⟩
abbrev main_v57 : Ref sig .tc := ⟨.hbm, 82, rfl⟩
abbrev main_v58 : Ref sig .tc := ⟨.hbm, 83, rfl⟩
abbrev main_c_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_12 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_14 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_15 : Ref sig .tc := ⟨.hbm, 115, rfl⟩
abbrev main_v86 : Ref sig .tc := ⟨.hbm, 116, rfl⟩
abbrev main_cst_16 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_17 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_18 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S256 : S_.BroadcastsInDim S256 (![] : Fin 0 → Fin S256.rank)
  bcast_S_S256x64 : S_.BroadcastsInDim S256x64 (![] : Fin 0 → Fin S256x64.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S256_S50000x1_S50000_n_0_0_1_wf : ScatterDims.WF S256 S50000x1 S50000 [] [0] [0] 1
  scatter_S256x64_S50000x1_S50000x64_1_0_0_1_wf : ScatterDims.WF S256x64 S50000x1 S50000x64 [1] [0] [0] 1
  dot_S256x64_S64x10_S256x10_1_0_0_1_n_n_wf : DotDims.WF S256x64 S64x10 S256x10 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def dot_S256x64_S64x10_S256x10_1_0_0_1_n_n : DotDims S256x64 S64x10 S256x10 where
  lhsContracting := [1]
  rhsContracting := [0]
  lhsNonContracting := [0]
  rhsNonContracting := [1]
  lhsBatch := []
  rhsBatch := []
  wf := dot_S256x64_S64x10_S256x10_1_0_0_1_n_n_wf

class Facts : Prop extends Facts₀ where

variable [Facts]
-- ==== Proof.Spec.lean ====
/-
  A two-layer graph convolution with mean pooling and a linear head, as one function of the inputs.

  The inputs: node features x [50000, 128]; the edge list ei [2, 800000] (row 0 the source node of each edge, row 1 its
  destination); the graph id of every node, batch [50000]; the weights and biases of two convolution layers and of the head.

  Every node's degree counts the edges that end in it, plus one for its self-loop; dinv is the degree to the power -1/2.
  An edge (s, d) carries the weight dinv(s)·dinv(d). One convolution of node features h with bias b gives, at node n,
      Σ_{edges (s, n)} h(s)·dinv(s)·dinv(n)  +  h(n)·dinv(n)²  +  b,
  the first layer is followed by max(·, 0). Pooling averages the second layer's rows over the nodes of each graph (the sum
  of the rows divided by the node count, at least one), and the head is a matrix product plus a bias row.

  The terms below spell this with the host operations of the reference program, so that the reference's result is this
  function by unfolding, and every other program is compared with it stage by stage.
-/
import proofs.«164401_j41618233099022_1_alg».proof.ReferenceIdeal

noncomputable section

namespace Cert.Spec

open Cert.ReferenceIdeal Idealize.ShloMosaic

variable {F : FTy → Type} [FloatOps F] [Facts₀]

open Facts₀

/-- The source node of each edge: row 0 of the edge list. -/
def src (ei : Vec F S2x800000 .i32) : Vec F S800000 .i32 :=
  shapeCast _ (extractStridedSlice S1x800000 ![0, 0] ei slices_S2x800000_S1x800000_0_0) shapeCasts_S1x800000_S800000

/-- The destination node of each edge: row 1 of the edge list. -/
def dst (ei : Vec F S2x800000 .i32) : Vec F S800000 .i32 :=
  shapeCast _ (extractStridedSlice S1x800000 ![1, 0] ei slices_S2x800000_S1x800000_1_0) shapeCasts_S1x800000_S800000

/-- A node index as array indexing reads it: a negative one counts from the end. -/
def wrap (i : Vec F S800000 .i32) : Vec F S800000 .i32 :=
  select (cmpi .slt i (broadcastInDim S800000 ![] bcast_S_S800000 (constantI S_ 32 0#32)))
    (addi i (broadcastInDim S800000 ![] bcast_S_S800000 (constantI S_ 32 50000#32))) i

/-- One index per edge, as a column of index vectors. -/
def col (i : Vec F S800000 .i32) : Vec F S800000x1 .i32 := broadcastInDim S800000x1 ![0] bcast_S800000_S800000x1_0 i

/-- (1 + the number of edges ending in a node) to the power -1/2. -/
def dinv (ei : Vec F S2x800000 .i32) : Vec F S50000 .f32 :=
  Host.rsqrt (addf (Host.scatterAdd scatter_S50000_S800000x1_S800000_n_0_0_1 (broadcastInDim S50000 ![] bcast_S_S50000 (constant S_ .f32 0x00000000#32)) (col (dst ei)) (broadcastInDim S800000 ![] bcast_S_S800000 (constant S_ .f32 0x3F800000#32))) (broadcastInDim S50000 ![] bcast_S_S50000 (constant S_ .f32 0x3F800000#32)))

/-- The weight of each edge, dv(source)·dv(destination), as a column, from the edges' two ends s and d and a value dv
    per node. -/
def normOf (s d : Vec F S800000 .i32) (dv : Vec F S50000 .f32) : Vec F S800000x1 .f32 :=
  broadcastInDim S800000x1 ![0] bcast_S800000_S800000x1_0 (mulf (Host.gather gather_S50000_S800000x1_S800000_n_0_n_n_0_1_1 dv (col (wrap s))) (Host.gather gather_S50000_S800000x1_S800000_n_0_n_n_0_1_1 dv (col (wrap d))))

/-- The messages summed at their destinations, from the edges' two ends s and d and a value dv per node: row n is
    Σ over the edges (s, n) of h(s) times the edge's weight. -/
def aggrOf (s d : Vec F S800000 .i32) (dv : Vec F S50000 .f32) (h : Vec F S50000x64 .f32) : Vec F S50000x64 .f32 :=
  Host.scatterAdd scatter_S50000x64_S800000x1_S800000x64_1_0_0_1 (broadcastInDim S50000x64 ![] bcast_S_S50000x64 (constant S_ .f32 0x00000000#32)) (col d) (mulf (Host.gather gather_S50000x64_S800000x1_S800000x64_1_0_n_n_0_1_164 h (col (wrap s))) (broadcastInDim S800000x64 ![0, 1] bcast_S800000x1_S800000x64_0_1 (normOf s d dv)))

/-- The messages summed at their destinations, over the edge list's own ends and inverse square roots of degrees. -/
def aggr (ei : Vec F S2x800000 .i32) (h : Vec F S50000x64 .f32) : Vec F S50000x64 .f32 :=
  aggrOf (src ei) (dst ei) (dinv ei) h

/-- The weight of each node's self-loop, dinv². -/
def selfw (ei : Vec F S2x800000 .i32) : Vec F S50000 .f32 := mulf (dinv ei) (dinv ei)

/-- Messages, plus the self-loop's share, plus the bias: the sum (agg + h·w) + b with a weight per node and a bias per
    feature. -/
def combine (agg h : Vec F S50000x64 .f32) (w : Vec F S50000 .f32) (b : Vec F S64 .f32) : Vec F S50000x64 .f32 :=
  addf (addf agg (mulf h (broadcastInDim S50000x64 ![0, 1] bcast_S50000x1_S50000x64_0_1 (broadcastInDim S50000x1 ![0] bcast_S50000_S50000x1_0 w)))) (broadcastInDim S50000x64 ![0, 1] bcast_S1x64_S50000x64_0_1 (broadcastInDim S1x64 ![1] bcast_S64_S1x64_1 b))

/-- One graph convolution of the (already multiplied) features h. -/
def conv (ei : Vec F S2x800000 .i32) (h : Vec F S50000x64 .f32) (b : Vec F S64 .f32) : Vec F S50000x64 .f32 :=
  combine (aggr ei h) h (selfw ei) b

/-- max(·, 0), entry by entry. -/
def relu (x : Vec F S50000x64 .f32) : Vec F S50000x64 .f32 :=
  maximumf x (broadcastInDim S50000x64 ![] bcast_S_S50000x64 (constant S_ .f32 0x00000000#32))

/-- The first layer's matrix product. -/
def lin1 (x : Vec F S50000x128 .f32) (W : Vec F S128x64 .f32) : Vec F S50000x64 .f32 :=
  Host.dotGeneral dot_S50000x128_S128x64_S50000x64_1_0_0_1_n_n none x W

/-- The second layer's matrix product. -/
def lin2 (h : Vec F S50000x64 .f32) (W : Vec F S64x64 .f32) : Vec F S50000x64 .f32 :=
  Host.dotGeneral dot_S50000x64_S64x64_S50000x64_1_0_0_1_n_n none h W

/-- The mean of the rows of h over the nodes of each graph (an empty graph divides by one). -/
def pool (batch : Vec F S50000 .i32) (h : Vec F S50000x64 .f32) : Vec F S256x64 .f32 :=
  Host.divf (Host.scatterAdd scatter_S256x64_S50000x1_S50000x64_1_0_0_1 (broadcastInDim S256x64 ![] bcast_S_S256x64 (constant S_ .f32 0x00000000#32)) (broadcastInDim S50000x1 ![0] bcast_S50000_S50000x1_0 batch) h) (broadcastInDim S256x64 ![0, 1] bcast_S256x1_S256x64_0_1 (broadcastInDim S256x1 ![0] bcast_S256_S256x1_0 (maximumf (Host.scatterAdd scatter_S256_S50000x1_S50000_n_0_0_1 (broadcastInDim S256 ![] bcast_S_S256 (constant S_ .f32 0x00000000#32)) (broadcastInDim S50000x1 ![0] bcast_S50000_S50000x1_0 batch) (broadcastInDim S50000 ![] bcast_S_S50000 (constant S_ .f32 0x3F800000#32))) (broadcastInDim S256 ![] bcast_S_S256 (constant S_ .f32 0x3F800000#32)))))

/-- The classifier: a matrix product plus a bias row. -/
def head (p : Vec F S256x64 .f32) (Wl : Vec F S64x10 .f32) (bl : Vec F S10 .f32) : Vec F S256x10 .f32 :=
  addf (Host.dotGeneral dot_S256x64_S64x10_S256x10_1_0_0_1_n_n none p Wl) (broadcastInDim S256x10 ![0, 1] bcast_S1x10_S256x10_0_1 (broadcastInDim S1x10 ![1] bcast_S10_S1x10_1 bl))

/-- The node features after the first layer. -/
def hidden1 (x : Vec F S50000x128 .f32) (ei : Vec F S2x800000 .i32) (W1 : Vec F S128x64 .f32) (b1 : Vec F S64 .f32) :
    Vec F S50000x64 .f32 := relu (conv ei (lin1 x W1) b1)

/-- The node features after the second layer. -/
def hidden2 (x : Vec F S50000x128 .f32) (ei : Vec F S2x800000 .i32) (W1 : Vec F S128x64 .f32) (b1 : Vec F S64 .f32)
    (W2 : Vec F S64x64 .f32) (b2 : Vec F S64 .f32) : Vec F S50000x64 .f32 :=
  conv ei (lin2 (hidden1 x ei W1 b1) W2) b2

/-- The whole network: one row of ten class scores per graph. -/
def out (x : Vec F S50000x128 .f32) (ei : Vec F S2x800000 .i32) (batch : Vec F S50000 .i32) (W1 : Vec F S128x64 .f32)
    (b1 : Vec F S64 .f32) (W2 : Vec F S64x64 .f32) (b2 : Vec F S64 .f32) (Wl : Vec F S64x10 .f32) (bl : Vec F S10 .f32) :
    Vec F S256x10 .f32 :=
  head (pool batch (hidden2 x ei W1 b1 W2 b2)) Wl bl

end Cert.Spec

end
-- ==== Proof.RefSide.lean ====
/-
  The reference program computes the network of Spec.lean: its result, as the composition of its host operations, is
  that function of the inputs term for term.
-/
import proofs.«164401_j41618233099022_1_alg».proof.Proof.Gen.ReferenceIdeal.Run
import proofs.«164401_j41618233099022_1_alg».proof.Proof.Spec

noncomputable section

namespace Cert.RefSide

open Cert.ReferenceIdeal Idealize.ShloMosaic Idealize.ShloMosaic.TcCoe Idealize.SL.Sem

variable {F : FTy → Type} [FloatOps F]

set_option maxRecDepth 8192 in
/-- The reference's result is the network of its arguments. -/
theorem result_eq (m : (ℓ : Loc nD τ sig) → Buf (Elt F) ℓ) (c : Dev nD) :
    Cert.ReferenceIdeal.Value.res_main_v101 m c
      = Cert.Spec.out (m ((c.tc : Thread nD τ).loc main_arg0)) (m ((c.tc : Thread nD τ).loc main_arg1))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8))
          (m ((c.tc : Thread nD τ).loc main_arg9)) := by
  unfold Cert.ReferenceIdeal.Value.res_main_v101
  rfl

end Cert.RefSide

end
-- ==== Proof.Stretches.lean ====
/-
  The host operations between the kernel regions, over any contents of the buffers they read.

  Before each combine the program gathers the source node's row of the multiplied features for every edge, scales it by
  the edge's weight (the product of the two ends' inverse square roots of degrees) and sums the rows at their
  destinations; it also lays the layer's bias out as one row. Before the head it counts the nodes of every graph, sums
  the rows of the node features per graph and divides. Each is the matching function of Spec.lean applied to what the
  buffers hold when the stretch begins.
-/
import proofs.«164401_j41618233099022_1_alg».proof.Proof.Gen.KernelIdeal.Launch
import proofs.«164401_j41618233099022_1_alg».proof.Proof.Gen.ReferenceIdeal
import proofs.«164401_j41618233099022_1_alg».proof.Proof.Spec
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Stretch

open Cert.KernelIdeal Cert.KernelIdeal.Gen

variable {F : FTy → Type} [FloatOps F] (W : Valuation τ sig (Elt F))

/-! ## Before the first region: the edge list's two rows, the inverse square roots of the degrees -/

theorem s0_v1 : (StableHlo.after hostOps0 W (Proc.devRef .tc main_v1) : Vec F S800000 .i32)
    = Cert.Spec.src (W (Proc.devRef .tc main_arg1)) := by
  after_results_simp
  rfl

theorem s0_v3 : (StableHlo.after hostOps0 W (Proc.devRef .tc main_v3) : Vec F S800000 .i32)
    = Cert.Spec.dst (W (Proc.devRef .tc main_arg1)) := by
  after_results_simp
  rfl

theorem s0_v10 : (StableHlo.after hostOps0 W (Proc.devRef .tc main_v10) : Vec F S50000 .f32)
    = Cert.Spec.dinv (W (Proc.devRef .tc main_arg1)) := by
  after_results_simp
  rfl

theorem s0_v12 : (StableHlo.after hostOps0 W (Proc.devRef .tc main_v12) : Vec F S50000x1 .f32)
    = shapeCast S50000x1 (Cert.Spec.selfw (W (Proc.devRef .tc main_arg1))) Facts₀.shapeCasts_S50000_S50000x1 := by
  after_results_simp
  rfl

/-! ## Before the first combine -/

set_option maxHeartbeats 4000000 in
theorem s1_v41 : (StableHlo.after hostOps1 W (Proc.devRef .tc main_v41) : Vec F S50000x64 .f32)
    = Cert.Spec.aggrOf (W (Proc.devRef .tc main_v1)) (W (Proc.devRef .tc main_v3)) (W (Proc.devRef .tc main_v10))
        (W (Proc.devRef .tc main_v13)) := by
  after_results_simp
  rfl

theorem s1_v42 : (StableHlo.after hostOps1 W (Proc.devRef .tc main_v42) : Vec F S1x64 .f32)
    = shapeCast S1x64 (W (Proc.devRef .tc main_arg5)) Facts₀.shapeCasts_S64_S1x64 := by
  after_results_simp
  rfl

/-! ## Before the second combine -/

set_option maxHeartbeats 4000000 in
theorem s3_v72 : (StableHlo.after hostOps3 W (Proc.devRef .tc main_v72) : Vec F S50000x64 .f32)
    = Cert.Spec.aggrOf (W (Proc.devRef .tc main_v1)) (W (Proc.devRef .tc main_v3)) (W (Proc.devRef .tc main_v10))
        (W (Proc.devRef .tc main_v44)) := by
  after_results_simp
  rfl

theorem s3_v73 : (StableHlo.after hostOps3 W (Proc.devRef .tc main_v73) : Vec F S1x64 .f32)
    = shapeCast S1x64 (W (Proc.devRef .tc main_arg7)) Facts₀.shapeCasts_S64_S1x64 := by
  after_results_simp
  rfl

/-! ## Before the head -/

theorem s4_v86 : (StableHlo.after hostOps4 W (Proc.devRef .tc main_v86) : Vec F S256x64 .f32)
    = Cert.Spec.pool (W (Proc.devRef .tc main_arg3)) (W (Proc.devRef .tc main_v74)) := by
  after_results_simp
  rfl

theorem s4_v87 : (StableHlo.after hostOps4 W (Proc.devRef .tc main_v87) : Vec F S1x10 .f32)
    = shapeCast S1x10 (W (Proc.devRef .tc main_arg9)) Facts₀.shapeCasts_S10_S1x10 := by
  after_results_simp
  rfl

end Cert.KernelIdeal.Stretch

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.Region0.lean ====
/-
  The first layer's product, region by region of the grid.

  The kernel multiplies a block of 10000 rows of x [50000, 128] by the whole of W [128, 64] at each of its 5 grid
  points and writes the block of 10000 rows of the result. Entry (p, q) of the block at point t is
  Σ_l x(10000·t + p, l)·W(l, q): entry (10000·t + p, q) of the whole product x·W. The 5 blocks tile the 50000 rows,
  so the array the region leaves is the whole product.
-/
import proofs.«164401_j41618233099022_1_alg».proof.Proof.Gen.KernelIdeal.Frame
import proofs.«164401_j41618233099022_1_alg».proof.Proof.Gen.ReferenceIdeal
import proofs.«164401_j41618233099022_1_alg».proof.Proof.Spec
import proofs.«164401_j41618233099022_1_alg».proof.Proof.LibDenseLayer
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's product at an entry of its block: row p of the x block against column q of W. -/
theorem pay_apply (x0 : Vec Ideal S10000x128 .f32) (x1 : Vec Ideal S128x64 .f32) (p : Fin 10000) (q : Fin 64) :
    k0_pay1 x0 x1 (ix2 p q) = ∑ l : Fin 128, x0 (ix2 p l) * x1 (ix2 l q) :=
  DenseLayer.matmul_rows_apply (m := 10000) (k := 128) (n := 64) Facts₀.dot_S10000x128_S128x64_S10000x64_1_0_0_1_n_n_wf none x0 x1 p q

/-- The whole product at an entry. -/
theorem lin_apply (X : Vec Ideal S50000x128 .f32) (W : Vec Ideal S128x64 .f32) (r : Fin 50000) (q : Fin 64) :
    Cert.Spec.lin1 X W (ix2 r q) = ∑ l : Fin 128, X (ix2 r l) * W (ix2 l q) :=
  DenseLayer.dotGeneral_rows_apply (m := 50000) (k := 128) (n := 64) Cert.ReferenceIdeal.Facts₀.dot_S50000x128_S128x64_S50000x64_1_0_0_1_n_n_wf none _ X W r q

/-- The index maps over the grid: the x block and the result block are block t of the rows; W is taken whole. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of the whole product of the arrays the region finds. -/
theorem flushed_eq (c : Dev nD) (t : Fin cfg0.N) :
    (dat0 V c).flushed 2 t
      = ((cfg0.win 2).blk t).view.read (Elt Ideal) (Cert.Spec.lin1 (V c main_arg0) (V c main_arg4)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨e0, e1, e2, e3, e4, e5⟩ := idx_facts t
  funext j
  obtain ⟨p, q, rfl⟩ : ∃ (p : Fin 10000) (q : Fin 64), j = ix2 p q := ⟨j 0, j 1, eq_ix2 j⟩
  show k0_pay1 (iblk0 V c 0 t) (iblk0 V c 1 t) (ix2 p q)
      = Cert.Spec.lin1 (V c main_arg0) (V c main_arg4) (((cfg0.win 2).blk t).view.emb (ix2 p q))
  rw [pay_apply]
  have ht : t.val < 5 := lt_of_lt_of_eq t.isLt N_0
  have hi : ((cfg0.win 2).blk t).view.emb (ix2 p q) = ix2 (⟨10000 * t.val + p.val, by omega⟩ : Fin 50000) q := by
    funext a; apply Fin.ext
    match a with
    | ⟨0, _⟩ => show win0_2.index t (0 : Fin 2) * 10000 + 1 * p.val = 10000 * t.val + p.val; omega
    | ⟨1, _⟩ => show win0_2.index t (1 : Fin 2) * 64 + 1 * q.val = q.val; omega
  rw [hi, lin_apply]
  refine Finset.sum_congr rfl fun l _ => ?_
  have hx : iblk0 V c 0 t (ix2 p l) = V c main_arg0 (ix2 (⟨10000 * t.val + p.val, by omega⟩ : Fin 50000) l) := by
    show V c main_arg0 (((cfg0.win 0).blk t).view.emb (ix2 p l)) = _
    refine congrArg _ ?_
    funext a; apply Fin.ext
    match a with
    | ⟨0, _⟩ => show win0_0.index t (0 : Fin 2) * 10000 + 1 * p.val = 10000 * t.val + p.val; omega
    | ⟨1, _⟩ => show win0_0.index t (1 : Fin 2) * 128 + 1 * l.val = l.val; omega
  have hw : iblk0 V c 1 t (ix2 l q) = V c main_arg4 (ix2 l q) := by
    show V c main_arg4 (((cfg0.win 1).blk t).view.emb (ix2 l q)) = _
    refine congrArg _ ?_
    funext a; apply Fin.ext
    match a with
    | ⟨0, _⟩ => show win0_1.index t (0 : Fin 2) * 128 + 1 * l.val = l.val; omega
    | ⟨1, _⟩ => show win0_1.index t (1 : Fin 2) * 64 + 1 * q.val = q.val; omega
  rw [hx, hw]

/-- An index of the result array is in point t's block iff its row is among the block's 10000 rows. -/
theorem mem_blk (t : Fin cfg0.N) (i : S50000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v13).slice (win0_2.rect t)).set ↔ _
  rw [View.set_slice_whole, Rect.mem_set_unit]
  exact Iff.rfl

/-- Row r lies in the block of point r / 10000: the 5 blocks cover the array. -/
theorem cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ : ∃ t : Fin cfg0.N, t.val = (i 0).val / 10000 :=
    ⟨⟨(i 0).val / 10000, by rw [show cfg0.N = 5 from N_0]; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The array the region leaves is the whole product of the two arrays it finds. -/
theorem value (c : Dev nD) : (dat0 V c).arrAt 2 cfg0.N = Cert.Spec.lin1 (V c main_arg0) (V c main_arg4) :=
  (dat0 V c).arrAt_eq_of_cover 2 _ (fun t _ => flushed_eq V c t) cover

end Cert.KernelIdeal.Region0

end
-- ==== Proof.LibRowOps.lean ====
/-
  Rows of a matrix read at an index: the keepdims column and the reductions over the columns.

  A vector [a] viewed as a column [a, 1] keeps its entries; a column [a, 1] broadcast to [a, b] repeats entry `p` along row
  `p`. A sum or a maximum over the second axis of an [a, b] matrix, read at row `i`, is the sum or the fold of `max` over the
  entries `(i, l)` of that row: for a kernel's reduction from its accumulator's value, and for the host's maximum from its
  initial value. The reductions are at the ideal values.
-/
import Idealize.ShloMosaic.PureOps.Ideal.Laws
import Idealize.ShloMosaic.Lib.ValueIdx
import Idealize.ShloMosaic.Lib.Pipeline.Value

noncomputable section

namespace Idealize.ShloMosaic.RowOps

open Idealize.ShloMosaic Idealize.ShloMosaic.ValueIdx

variable {α : Type}

/-! ## The keepdims column -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Reductions over the columns, at the ideal values -/

/-- The index over row `i` with `l` put on the dropped second axis is `(i, l)`. -/
theorem lift_row {a b : ℕ} (h : (⟨2, ![a, b]⟩ : Shape).Reduces [1] ⟨1, ![a]⟩) (i : Fin a) (l : Fin b) :
    h.lift (ix1 i) l = ix2 i l := by
  funext ax; apply Fin.ext
  match ax with
  | ⟨0, _⟩ => rfl
  | ⟨1, _⟩ => rfl

/-- A kernel's sum over the columns, read at row `i`, is the sum of the row's entries. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ l : Fin b, src (ix2 i l) := by
  refine (Ideal.multiReduction_add_single src acc h hφ hacc (ix1 i)).trans ?_
  show ∑ l : Fin b, src (h.lift (ix1 i) l) = _
  exact Finset.sum_congr rfl fun l _ => congrArg src (lift_row h i l)

/-- A kernel's maximum over the columns, read at row `i`, is the fold of `max`, from the accumulator's value, over the
    row's entries. -/
theorem multiReduction_maximumf_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun l => src (ix2 i l)) := by
  refine (Ideal.multiReduction_maximumf_single src acc h hφ hacc (ix1 i)).trans ?_
  show (Finset.univ : Finset (Fin b)).fold max (Ideal.ofBits φ acc) (fun l => src (h.lift (ix1 i) l)) = _
  exact congrArg (fun f : Fin b → EReal => (Finset.univ : Finset (Fin b)).fold max (Ideal.ofBits φ acc) f)
    (funext fun l => congrArg src (lift_row h i l))

/-- The host's maximum over the columns, read at row `i`, is the fold of `max`, from the initial value, over the row's
    entries. -/
theorem hostReduce_maximumf_row {a b : ℕ} {φ : FTy} {u : Shape} (x : (⟨2, ![a, b]⟩ : Shape).Idx → Ideal φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (i : Fin a) :
    Host.reduce (FloatOps.maximumf (F := Ideal) (φ := φ)) x init h' hu (ix1 i)
      = (Finset.univ : Finset (Fin b)).fold max (init (Shape.Idx.first hu)) (fun l => x (ix2 i l)) := by
  refine (Host.reduce_eq_fold_single (FloatOps.maximumf (F := Ideal) (φ := φ)) x init h' h hu (ix1 i)).trans ?_
  show (Finset.univ : Finset (Fin b)).fold max (init (Shape.Idx.first hu)) (fun l => x (h.lift (ix1 i) l)) = _
  exact congrArg (fun f : Fin b → EReal => (Finset.univ : Finset (Fin b)).fold max (init (Shape.Idx.first hu)) f)
    (funext fun l => congrArg x (lift_row h i l))

end Idealize.ShloMosaic.RowOps

end
-- ==== Proof.LibRowColumn.lean ====
/-
  A weight per row laid over the columns of a matrix, read at an entry.

  A vector w of a entries becomes a column [a, 1] and the column is repeated along b columns: entry (p, c) of the result
  is w(p), whatever c. The host spells it as two broadcasts in dimensions (the vector along axis 0 of the column, the
  column along both axes of the matrix); a reshape of the vector to a column reads the same entries.
-/
import Idealize.ShloMosaic.Lib.ValueIdx
import Idealize.ShloMosaic.Lib.Pipeline.Value

noncomputable section

namespace Idealize.ShloMosaic.RowColumn

open Idealize.ShloMosaic Idealize.ShloMosaic.ValueIdx

variable {α : Type}

/-- A vector `[a]` laid down a column `[a, 1]` reads, at `(p, u)`, the vector at `p`. -/
theorem broadcastInDim_vec_col_apply {a : ℕ} (h : (⟨1, ![a]⟩ : Shape).BroadcastsInDim ⟨2, ![a, 1]⟩ ![0])
    (v : (⟨1, ![a]⟩ : Shape).Idx → α) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A column `[a, 1]` repeated along `b` columns reads, at `(p, c)`, the column at `(p, 0)`. -/
theorem broadcastInDim_col_mat_apply {a b : ℕ} (h : (⟨2, ![a, 1]⟩ : Shape).BroadcastsInDim ⟨2, ![a, b]⟩ ![0, 1])
    (y : (⟨2, ![a, 1]⟩ : Shape).Idx → α) (p : Fin a) (c : Fin b) :
    broadcastInDim ⟨2, ![a, b]⟩ ![0, 1] h y (ix2 p c) = y (ix2 p (0 : Fin 1)) := by
  refine broadcastInDim_apply ![0, 1] h y (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A vector `[a]` laid down a column and the column repeated along `b` columns reads, at `(p, c)`, the vector at `p`. -/
theorem weight_inDim_apply {a b : ℕ} (h1 : (⟨1, ![a]⟩ : Shape).BroadcastsInDim ⟨2, ![a, 1]⟩ ![0])
    (h2 : (⟨2, ![a, 1]⟩ : Shape).BroadcastsInDim ⟨2, ![a, b]⟩ ![0, 1])
    (v : (⟨1, ![a]⟩ : Shape).Idx → α) (p : Fin a) (c : Fin b) :
    broadcastInDim ⟨2, ![a, b]⟩ ![0, 1] h2 (broadcastInDim ⟨2, ![a, 1]⟩ ![0] h1 v) (ix2 p c) = v (ix1 p) := by
  rw [broadcastInDim_col_mat_apply, broadcastInDim_vec_col_apply]

end Idealize.ShloMosaic.RowColumn

end
-- ==== Proof.Region1.lean ====
/-
  The first layer's combine-and-rectify, region by region of the grid.

  At each of its 5 grid points the kernel takes the block of 10000 rows of the summed messages agg [50000, 64], the same
  rows of the multiplied features h [50000, 64] and of the self-loop weights, a column [50000, 1], and the whole bias row
  [1, 64], and writes the rows of max((agg + h·w) + b, 0): entry (p, q) of the block at point t is
      max((agg(r, q) + h(r, q)·w(r)) + b(q), 0)   at the row r = 10000·t + p.
  The 5 blocks tile the 50000 rows, so the array the region leaves is that function of the whole arrays: the host's
  spelling of it, when the weight column is a vector w reshaped and the bias row a vector b reshaped.
-/
import proofs.«164401_j41618233099022_1_alg».proof.Proof.Gen.KernelIdeal.Frame
import proofs.«164401_j41618233099022_1_alg».proof.Proof.Gen.ReferenceIdeal
import proofs.«164401_j41618233099022_1_alg».proof.Proof.Spec
import proofs.«164401_j41618233099022_1_alg».proof.Proof.LibDenseLayer
import proofs.«164401_j41618233099022_1_alg».proof.Proof.LibRowOps
import proofs.«164401_j41618233099022_1_alg».proof.Proof.LibRowColumn
import Idealize.ShloMosaic.Lib.Pipeline.Value
import Idealize.ShloMosaic.Lib.ValueIdx
import Idealize.ShloMosaic.Lib.ValueLayout
import Idealize.ShloMosaic.Lib.IdealHost

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's value at an entry of its block: the messages plus the features times the row's weight, plus the
    column's bias, rectified (the body's casts of each block to its own shape change nothing). -/
theorem pay_apply (v0 v2 : Vec Ideal S10000x64 .f32) (v4 : Vec Ideal S10000x1 .f32) (v9 : Vec Ideal S1x64 .f32)
    (p : Fin 10000) (q : Fin 64) :
    k1_pay1 v0 v2 v4 v9 (ix2 p q)
      = max ((v0 (ix2 p q) + v2 (ix2 p q) * v4 (ix2 p (0 : Fin 1))) + v9 (ix2 (0 : Fin 1) q))
          (Ideal.ofBits .f32 0x00000000#32) := by
  have e : k1_pay1 v0 v2 v4 v9 = maximumf (addf (addf (shapeCast S10000x64 v0 Facts₀.shapeCasts_S10000x64_S10000x64)
      (mulf (shapeCast S10000x64 v2 Facts₀.shapeCasts_S10000x64_S10000x64)
        (broadcastTo S10000x64 (shapeCast S10000x1 v4 Facts₀.shapeCasts_S10000x1_S10000x1) Facts₀.broadcasts_S10000x1_S10000x64)))
      (broadcastTo S10000x64 (shapeCast S1x64 v9 Facts₀.shapeCasts_S1x64_S1x64) Facts₀.broadcasts_S1x64_S10000x64))
      (broadcast S10000x64 (Scalar.ofBits .f32 0x00000000#32)) := rfl
  rw [e]
  simp only [shapeCast_self]
  show max ((v0 (ix2 p q) + v2 (ix2 p q) * broadcastTo S10000x64 v4 Facts₀.broadcasts_S10000x1_S10000x64 (ix2 p q))
      + broadcastTo S10000x64 v9 Facts₀.broadcasts_S1x64_S10000x64 (ix2 p q)) (Ideal.ofBits .f32 0x00000000#32) = _
  rw [RowOps.broadcastTo_a1_ab_apply, broadcastTo_1b_ab_apply]

/-- The host's spelling of the same function of the whole arrays, at an entry. -/
theorem spec_apply (agg h : Vec Ideal S50000x64 .f32) (w : Vec Ideal S50000 .f32) (b : Vec Ideal S64 .f32)
    (r : Fin 50000) (q : Fin 64) :
    Cert.Spec.relu (Cert.Spec.combine agg h w b) (ix2 r q)
      = max ((agg (ix2 r q) + h (ix2 r q) * w (ix1 r)) + b (ix1 q)) (Ideal.ofBits .f32 0x00000000#32) := by
  unfold Cert.Spec.relu Cert.Spec.combine
  simp only [maximumf_apply, addf_apply, mulf_apply]
  rw [RowColumn.weight_inDim_apply, DenseLayer.bias_inDim_apply, broadcastInDim_scalar_apply]
  rfl

/-- The index maps over the grid: the three row blocks move with the result's block; the bias row is taken whole. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the host's spelling over the arrays the region finds. -/
theorem flushed_eq (c : Dev nD) (w : Vec Ideal S50000 .f32) (b : Vec Ideal S64 .f32)
    (hw : V c main_v12 = shapeCast S50000x1 w Facts₀.shapeCasts_S50000_S50000x1)
    (hb : V c main_v42 = shapeCast S1x64 b Facts₀.shapeCasts_S64_S1x64) (t : Fin cfg1.N) :
    (dat1 V c).flushed 4 t
      = ((cfg1.win 4).blk t).view.read (Elt Ideal)
          (Cert.Spec.relu (Cert.Spec.combine (V c main_v41) (V c main_v13) w b)) := by
  show (cfg1.win 4).cut (grid1.coords t) ((dat1 V c).after 4 t) = _
  rw [after1_4]
  unfold out1_4
  rw [View.canon_unit_zero hz]
  simp only [View.ld_unit_zero (S := S10000x64) hz, View.ld_unit_zero (S := S10000x1) hz, View.ld_unit_zero (S := S1x64) hz]
  obtain ⟨a0, a1, b0, b1, c0, c1, d0, d1, e0, e1⟩ := idx_facts t
  funext j
  obtain ⟨p, q, rfl⟩ : ∃ (p : Fin 10000) (q : Fin 64), j = ix2 p q := ⟨j 0, j 1, eq_ix2 j⟩
  show k1_pay1 (iblk1 V c 0 t) (iblk1 V c 1 t) (iblk1 V c 2 t) (iblk1 V c 3 t) (ix2 p q)
      = Cert.Spec.relu (Cert.Spec.combine (V c main_v41) (V c main_v13) w b) (((cfg1.win 4).blk t).view.emb (ix2 p q))
  rw [pay_apply]
  have ht : t.val < 5 := lt_of_lt_of_eq t.isLt N_1
  have hi : ((cfg1.win 4).blk t).view.emb (ix2 p q) = ix2 (⟨10000 * t.val + p.val, by omega⟩ : Fin 50000) q := by
    funext a; apply Fin.ext
    match a with
    | ⟨0, _⟩ => show win1_4.index t (0 : Fin 2) * 10000 + 1 * p.val = 10000 * t.val + p.val; omega
    | ⟨1, _⟩ => show win1_4.index t (1 : Fin 2) * 64 + 1 * q.val = q.val; omega
  rw [hi, spec_apply]
  have h0 : iblk1 V c 0 t (ix2 p q) = V c main_v41 (ix2 (⟨10000 * t.val + p.val, by omega⟩ : Fin 50000) q) := by
    show V c main_v41 (((cfg1.win 0).blk t).view.emb (ix2 p q)) = _
    refine congrArg _ ?_
    funext a; apply Fin.ext
    match a with
    | ⟨0, _⟩ => show win1_0.index t (0 : Fin 2) * 10000 + 1 * p.val = 10000 * t.val + p.val; omega
    | ⟨1, _⟩ => show win1_0.index t (1 : Fin 2) * 64 + 1 * q.val = q.val; omega
  have h1 : iblk1 V c 1 t (ix2 p q) = V c main_v13 (ix2 (⟨10000 * t.val + p.val, by omega⟩ : Fin 50000) q) := by
    show V c main_v13 (((cfg1.win 1).blk t).view.emb (ix2 p q)) = _
    refine congrArg _ ?_
    funext a; apply Fin.ext
    match a with
    | ⟨0, _⟩ => show win1_1.index t (0 : Fin 2) * 10000 + 1 * p.val = 10000 * t.val + p.val; omega
    | ⟨1, _⟩ => show win1_1.index t (1 : Fin 2) * 64 + 1 * q.val = q.val; omega
  have h2 : iblk1 V c 2 t (ix2 p (0 : Fin 1)) = w (ix1 (⟨10000 * t.val + p.val, by omega⟩ : Fin 50000)) := by
    show V c main_v12 (((cfg1.win 2).blk t).view.emb (ix2 p (0 : Fin 1))) = _
    rw [hw]
    refine Eq.trans (congrArg _ ?_) (RowOps.shapeCast_a_a1_apply w Facts₀.shapeCasts_S50000_S50000x1 (⟨10000 * t.val + p.val, by omega⟩ : Fin 50000) (0 : Fin 1))
    funext a; apply Fin.ext
    match a with
    | ⟨0, _⟩ => show win1_2.index t (0 : Fin 2) * 10000 + 1 * p.val = 10000 * t.val + p.val; omega
    | ⟨1, _⟩ => show win1_2.index t (1 : Fin 2) * 1 + 1 * 0 = 0; omega
  have h3 : iblk1 V c 3 t (ix2 (0 : Fin 1) q) = b (ix1 q) := by
    show V c main_v42 (((cfg1.win 3).blk t).view.emb (ix2 (0 : Fin 1) q)) = _
    rw [hb]
    refine Eq.trans (congrArg _ ?_) (shapeCast_a_1a_apply b Facts₀.shapeCasts_S64_S1x64 (0 : Fin 1) q)
    funext a; apply Fin.ext
    match a with
    | ⟨0, _⟩ => show win1_3.index t (0 : Fin 2) * 1 + 1 * 0 = 0; omega
    | ⟨1, _⟩ => show win1_3.index t (1 : Fin 2) * 64 + 1 * q.val = q.val; omega
  rw [h0, h1, h2, h3]

/-- An index of the result array is in point t's block iff its row is among the block's 10000 rows. -/
theorem mem_blk (t : Fin cfg1.N) (i : S50000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v43).slice (win1_4.rect t)).set ↔ _
  rw [View.set_slice_whole, Rect.mem_set_unit]
  exact Iff.rfl

/-- Row r lies in the block of point r / 10000: the 5 blocks cover the array. -/
theorem cover (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ : ∃ t : Fin cfg1.N, t.val = (i 0).val / 10000 :=
    ⟨⟨(i 0).val / 10000, by rw [show cfg1.N = 5 from N_1]; omega⟩, rfl⟩
  obtain ⟨a0, a1, b0, b1, c0, c1, d0, d1, e0, e1⟩ := idx_facts t
  refine ⟨t, flush1_4 t, ?_⟩
  rw [mem_blk]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 64 ≤ (i 1).val ∧ (i 1).val < win1_4.index t (1 : Fin 2) * 64 + 64; omega

/-- The array the region leaves: the rectified combination of the arrays it finds, with the weight column the vector w
    and the bias row the vector b. -/
theorem value (c : Dev nD) (w : Vec Ideal S50000 .f32) (b : Vec Ideal S64 .f32)
    (hw : V c main_v12 = shapeCast S50000x1 w Facts₀.shapeCasts_S50000_S50000x1)
    (hb : V c main_v42 = shapeCast S1x64 b Facts₀.shapeCasts_S64_S1x64) :
    (dat1 V c).arrAt 4 cfg1.N = Cert.Spec.relu (Cert.Spec.combine (V c main_v41) (V c main_v13) w b) :=
  (dat1 V c).arrAt_eq_of_cover 4 _ (fun t _ => flushed_eq V c w b hw hb t) cover

end Cert.KernelIdeal.Region1

end
-- ==== Proof.Region2.lean ====
/-
  The second layer's product, region by region of the grid.

  The kernel multiplies a block of 10000 rows of the hidden features h [50000, 64] by the whole of W [64, 64] at each of
  its 5 grid points and writes the block of 10000 rows of the result. Entry (p, q) of the block at point t is
  Σ_l h(10000·t + p, l)·W(l, q): entry (10000·t + p, q) of the whole product h·W. The 5 blocks tile the 50000 rows,
  so the array the region leaves is the whole product.
-/
import proofs.«164401_j41618233099022_1_alg».proof.Proof.Gen.KernelIdeal.Frame
import proofs.«164401_j41618233099022_1_alg».proof.Proof.Gen.ReferenceIdeal
import proofs.«164401_j41618233099022_1_alg».proof.Proof.Spec
import proofs.«164401_j41618233099022_1_alg».proof.Proof.LibDenseLayer
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's product at an entry of its block: row p of the h block against column q of W (the body's cast of the
    block to its own shape changes nothing). -/
theorem pay_apply (x0 : Vec Ideal S10000x64 .f32) (x1 : Vec Ideal S64x64 .f32) (p : Fin 10000) (q : Fin 64) :
    k2_pay1 x0 x1 (ix2 p q) = ∑ l : Fin 64, x0 (ix2 p l) * x1 (ix2 l q) := by
  have e : k2_pay1 x0 x1 = matmul dot_S10000x64_S64x64_S10000x64_1_0_0_1_n_n none
      (shapeCast S10000x64 x0 Facts₀.shapeCasts_S10000x64_S10000x64) x1 (constant S10000x64 .f32 0x00000000#32) := rfl
  rw [e, shapeCast_self]
  exact DenseLayer.matmul_rows_apply (m := 10000) (k := 64) (n := 64) Facts₀.dot_S10000x64_S64x64_S10000x64_1_0_0_1_n_n_wf none x0 x1 p q

/-- The whole product at an entry. -/
theorem lin_apply (X : Vec Ideal S50000x64 .f32) (W : Vec Ideal S64x64 .f32) (r : Fin 50000) (q : Fin 64) :
    Cert.Spec.lin2 X W (ix2 r q) = ∑ l : Fin 64, X (ix2 r l) * W (ix2 l q) :=
  DenseLayer.dotGeneral_rows_apply (m := 50000) (k := 64) (n := 64) Cert.ReferenceIdeal.Facts₀.dot_S50000x64_S64x64_S50000x64_1_0_0_1_n_n_wf none _ X W r q

/-- The index maps over the grid: the h block and the result block are block t of the rows; W is taken whole. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point t writes back is block t of the whole product of the arrays the region finds. -/
theorem flushed_eq (c : Dev nD) (t : Fin cfg2.N) :
    (dat2 V c).flushed 2 t
      = ((cfg2.win 2).blk t).view.read (Elt Ideal) (Cert.Spec.lin2 (V c main_v43) (V c main_arg6)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  obtain ⟨e0, e1, e2, e3, e4, e5⟩ := idx_facts t
  funext j
  obtain ⟨p, q, rfl⟩ : ∃ (p : Fin 10000) (q : Fin 64), j = ix2 p q := ⟨j 0, j 1, eq_ix2 j⟩
  show k2_pay1 (iblk2 V c 0 t) (iblk2 V c 1 t) (ix2 p q)
      = Cert.Spec.lin2 (V c main_v43) (V c main_arg6) (((cfg2.win 2).blk t).view.emb (ix2 p q))
  rw [pay_apply]
  have ht : t.val < 5 := lt_of_lt_of_eq t.isLt N_2
  have hi : ((cfg2.win 2).blk t).view.emb (ix2 p q) = ix2 (⟨10000 * t.val + p.val, by omega⟩ : Fin 50000) q := by
    funext a; apply Fin.ext
    match a with
    | ⟨0, _⟩ => show win2_2.index t (0 : Fin 2) * 10000 + 1 * p.val = 10000 * t.val + p.val; omega
    | ⟨1, _⟩ => show win2_2.index t (1 : Fin 2) * 64 + 1 * q.val = q.val; omega
  rw [hi, lin_apply]
  refine Finset.sum_congr rfl fun l _ => ?_
  have hx : iblk2 V c 0 t (ix2 p l) = V c main_v43 (ix2 (⟨10000 * t.val + p.val, by omega⟩ : Fin 50000) l) := by
    show V c main_v43 (((cfg2.win 0).blk t).view.emb (ix2 p l)) = _
    refine congrArg _ ?_
    funext a; apply Fin.ext
    match a with
    | ⟨0, _⟩ => show win2_0.index t (0 : Fin 2) * 10000 + 1 * p.val = 10000 * t.val + p.val; omega
    | ⟨1, _⟩ => show win2_0.index t (1 : Fin 2) * 64 + 1 * l.val = l.val; omega
  have hw : iblk2 V c 1 t (ix2 l q) = V c main_arg6 (ix2 l q) := by
    show V c main_arg6 (((cfg2.win 1).blk t).view.emb (ix2 l q)) = _
    refine congrArg _ ?_
    funext a; apply Fin.ext
    match a with
    | ⟨0, _⟩ => show win2_1.index t (0 : Fin 2) * 64 + 1 * l.val = l.val; omega
    | ⟨1, _⟩ => show win2_1.index t (1 : Fin 2) * 64 + 1 * q.val = q.val; omega
  rw [hx, hw]

/-- An index of the result array is in point t's block iff its row is among the block's 10000 rows. -/
theorem mem_blk (t : Fin cfg2.N) (i : S50000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v44).slice (win2_2.rect t)).set ↔ _
  rw [View.set_slice_whole, Rect.mem_set_unit]
  exact Iff.rfl

/-- Row r lies in the block of point r / 10000: the 5 blocks cover the array. -/
theorem cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ : ∃ t : Fin cfg2.N, t.val = (i 0).val / 10000 :=
    ⟨⟨(i 0).val / 10000, by rw [show cfg2.N = 5 from N_2]; omega⟩, rfl⟩
  obtain ⟨e0, e1, e2, e3, e4, e5⟩ := idx_facts t
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The array the region leaves is the whole product of the two arrays it finds. -/
theorem value (c : Dev nD) : (dat2 V c).arrAt 2 cfg2.N = Cert.Spec.lin2 (V c main_v43) (V c main_arg6) :=
  (dat2 V c).arrAt_eq_of_cover 2 _ (fun t _ => flushed_eq V c t) cover

end Cert.KernelIdeal.Region2

end
-- ==== Proof.Region3.lean ====
/-
  The second layer's combine, region by region of the grid.

  At each of its 5 grid points the kernel takes the block of 10000 rows of the summed messages agg [50000, 64], the same
  rows of the multiplied features h [50000, 64] and of the self-loop weights, a column [50000, 1], and the whole bias row
  [1, 64], and writes the rows of (agg + h·w) + b: entry (p, q) of the block at point t is
      (agg(r, q) + h(r, q)·w(r)) + b(q)   at the row r = 10000·t + p.
  The 5 blocks tile the 50000 rows, so the array the region leaves is that function of the whole arrays: the host's
  spelling of it, when the weight column is a vector w reshaped and the bias row a vector b reshaped.
-/
import proofs.«164401_j41618233099022_1_alg».proof.Proof.Gen.KernelIdeal.Frame
import proofs.«164401_j41618233099022_1_alg».proof.Proof.Gen.ReferenceIdeal
import proofs.«164401_j41618233099022_1_alg».proof.Proof.Spec
import proofs.«164401_j41618233099022_1_alg».proof.Proof.LibDenseLayer
import proofs.«164401_j41618233099022_1_alg».proof.Proof.LibRowOps
import proofs.«164401_j41618233099022_1_alg».proof.Proof.LibRowColumn
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's value at an entry of its block: the messages plus the features times the row's weight, plus the
    column's bias (the body's casts of each block to its own shape change nothing). -/
theorem pay_apply (v0 v2 : Vec Ideal S10000x64 .f32) (v4 : Vec Ideal S10000x1 .f32) (v9 : Vec Ideal S1x64 .f32)
    (p : Fin 10000) (q : Fin 64) :
    k3_pay1 v0 v2 v4 v9 (ix2 p q)
      = (v0 (ix2 p q) + v2 (ix2 p q) * v4 (ix2 p (0 : Fin 1))) + v9 (ix2 (0 : Fin 1) q) := by
  have e : k3_pay1 v0 v2 v4 v9 = addf (addf (shapeCast S10000x64 v0 Facts₀.shapeCasts_S10000x64_S10000x64)
      (mulf (shapeCast S10000x64 v2 Facts₀.shapeCasts_S10000x64_S10000x64)
        (broadcastTo S10000x64 (shapeCast S10000x1 v4 Facts₀.shapeCasts_S10000x1_S10000x1) Facts₀.broadcasts_S10000x1_S10000x64)))
      (broadcastTo S10000x64 (shapeCast S1x64 v9 Facts₀.shapeCasts_S1x64_S1x64) Facts₀.broadcasts_S1x64_S10000x64) := rfl
  rw [e]
  simp only [shapeCast_self]
  show (v0 (ix2 p q) + v2 (ix2 p q) * broadcastTo S10000x64 v4 Facts₀.broadcasts_S10000x1_S10000x64 (ix2 p q))
      + broadcastTo S10000x64 v9 Facts₀.broadcasts_S1x64_S10000x64 (ix2 p q) = _
  rw [RowOps.broadcastTo_a1_ab_apply, broadcastTo_1b_ab_apply]

/-- The host's spelling of the same function of the whole arrays, at an entry. -/
theorem spec_apply (agg h : Vec Ideal S50000x64 .f32) (w : Vec Ideal S50000 .f32) (b : Vec Ideal S64 .f32)
    (r : Fin 50000) (q : Fin 64) :
    Cert.Spec.combine agg h w b (ix2 r q) = (agg (ix2 r q) + h (ix2 r q) * w (ix1 r)) + b (ix1 q) := by
  unfold Cert.Spec.combine
  simp only [addf_apply, mulf_apply]
  rw [RowColumn.weight_inDim_apply, DenseLayer.bias_inDim_apply]

/-- The index maps over the grid: the three row blocks move with the result's block; the bias row is taken whole. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point t writes back is block t of the host's spelling over the arrays the region finds. -/
theorem flushed_eq (c : Dev nD) (w : Vec Ideal S50000 .f32) (b : Vec Ideal S64 .f32)
    (hw : V c main_v12 = shapeCast S50000x1 w Facts₀.shapeCasts_S50000_S50000x1)
    (hb : V c main_v73 = shapeCast S1x64 b Facts₀.shapeCasts_S64_S1x64) (t : Fin cfg3.N) :
    (dat3 V c).flushed 4 t
      = ((cfg3.win 4).blk t).view.read (Elt Ideal) (Cert.Spec.combine (V c main_v72) (V c main_v44) w b) := by
  show (cfg3.win 4).cut (grid3.coords t) ((dat3 V c).after 4 t) = _
  rw [after3_4]
  unfold out3_4
  rw [View.canon_unit_zero hz]
  simp only [View.ld_unit_zero (S := S10000x64) hz, View.ld_unit_zero (S := S10000x1) hz, View.ld_unit_zero (S := S1x64) hz]
  obtain ⟨a0, a1, b0, b1, c0, c1, d0, d1, e0, e1⟩ := idx_facts t
  funext j
  obtain ⟨p, q, rfl⟩ : ∃ (p : Fin 10000) (q : Fin 64), j = ix2 p q := ⟨j 0, j 1, eq_ix2 j⟩
  show k3_pay1 (iblk3 V c 0 t) (iblk3 V c 1 t) (iblk3 V c 2 t) (iblk3 V c 3 t) (ix2 p q)
      = Cert.Spec.combine (V c main_v72) (V c main_v44) w b (((cfg3.win 4).blk t).view.emb (ix2 p q))
  rw [pay_apply]
  have ht : t.val < 5 := lt_of_lt_of_eq t.isLt N_3
  have hi : ((cfg3.win 4).blk t).view.emb (ix2 p q) = ix2 (⟨10000 * t.val + p.val, by omega⟩ : Fin 50000) q := by
    funext a; apply Fin.ext
    match a with
    | ⟨0, _⟩ => show win3_4.index t (0 : Fin 2) * 10000 + 1 * p.val = 10000 * t.val + p.val; omega
    | ⟨1, _⟩ => show win3_4.index t (1 : Fin 2) * 64 + 1 * q.val = q.val; omega
  rw [hi, spec_apply]
  have h0 : iblk3 V c 0 t (ix2 p q) = V c main_v72 (ix2 (⟨10000 * t.val + p.val, by omega⟩ : Fin 50000) q) := by
    show V c main_v72 (((cfg3.win 0).blk t).view.emb (ix2 p q)) = _
    refine congrArg _ ?_
    funext a; apply Fin.ext
    match a with
    | ⟨0, _⟩ => show win3_0.index t (0 : Fin 2) * 10000 + 1 * p.val = 10000 * t.val + p.val; omega
    | ⟨1, _⟩ => show win3_0.index t (1 : Fin 2) * 64 + 1 * q.val = q.val; omega
  have h1 : iblk3 V c 1 t (ix2 p q) = V c main_v44 (ix2 (⟨10000 * t.val + p.val, by omega⟩ : Fin 50000) q) := by
    show V c main_v44 (((cfg3.win 1).blk t).view.emb (ix2 p q)) = _
    refine congrArg _ ?_
    funext a; apply Fin.ext
    match a with
    | ⟨0, _⟩ => show win3_1.index t (0 : Fin 2) * 10000 + 1 * p.val = 10000 * t.val + p.val; omega
    | ⟨1, _⟩ => show win3_1.index t (1 : Fin 2) * 64 + 1 * q.val = q.val; omega
  have h2 : iblk3 V c 2 t (ix2 p (0 : Fin 1)) = w (ix1 (⟨10000 * t.val + p.val, by omega⟩ : Fin 50000)) := by
    show V c main_v12 (((cfg3.win 2).blk t).view.emb (ix2 p (0 : Fin 1))) = _
    rw [hw]
    refine Eq.trans (congrArg _ ?_) (RowOps.shapeCast_a_a1_apply w Facts₀.shapeCasts_S50000_S50000x1 (⟨10000 * t.val + p.val, by omega⟩ : Fin 50000) (0 : Fin 1))
    funext a; apply Fin.ext
    match a with
    | ⟨0, _⟩ => show win3_2.index t (0 : Fin 2) * 10000 + 1 * p.val = 10000 * t.val + p.val; omega
    | ⟨1, _⟩ => show win3_2.index t (1 : Fin 2) * 1 + 1 * 0 = 0; omega
  have h3 : iblk3 V c 3 t (ix2 (0 : Fin 1) q) = b (ix1 q) := by
    show V c main_v73 (((cfg3.win 3).blk t).view.emb (ix2 (0 : Fin 1) q)) = _
    rw [hb]
    refine Eq.trans (congrArg _ ?_) (shapeCast_a_1a_apply b Facts₀.shapeCasts_S64_S1x64 (0 : Fin 1) q)
    funext a; apply Fin.ext
    match a with
    | ⟨0, _⟩ => show win3_3.index t (0 : Fin 2) * 1 + 1 * 0 = 0; omega
    | ⟨1, _⟩ => show win3_3.index t (1 : Fin 2) * 64 + 1 * q.val = q.val; omega
  rw [h0, h1, h2, h3]

/-- An index of the result array is in point t's block iff its row is among the block's 10000 rows. -/
theorem mem_blk (t : Fin cfg3.N) (i : S50000x64.Idx) :
    i ∈ ((cfg3.win 4).blk t).view.set ↔ ∀ a : Fin 2, win3_4.index t a * S10000x64.size a ≤ (i a).val ∧ (i a).val < win3_4.index t a * S10000x64.size a + S10000x64.size a := by
  show i ∈ ((View.whole main_v74).slice (win3_4.rect t)).set ↔ _
  rw [View.set_slice_whole, Rect.mem_set_unit]
  exact Iff.rfl

/-- Row r lies in the block of point r / 10000: the 5 blocks cover the array. -/
theorem cover (i : S50000x64.Idx) :
    ∃ t : Fin cfg3.N, (cfg3.win 4).flush t = true ∧ i ∈ ((cfg3.win 4).blk t).view.set := by
  have hi0 : (i 0).val < 50000 := (i 0).isLt
  have hi1 : (i 1).val < 64 := (i 1).isLt
  obtain ⟨t, ht⟩ : ∃ t : Fin cfg3.N, t.val = (i 0).val / 10000 :=
    ⟨⟨(i 0).val / 10000, by rw [show cfg3.N = 5 from N_3]; omega⟩, rfl⟩
  obtain ⟨a0, a1, b0, b1, c0, c1, d0, d1, e0, e1⟩ := idx_facts t
  refine ⟨t, flush3_4 t, ?_⟩
  rw [mem_blk]
  intro a
  match a with
  | ⟨0, _⟩ => show win3_4.index t (0 : Fin 2) * 10000 ≤ (i 0).val ∧ (i 0).val < win3_4.index t (0 : Fin 2) * 10000 + 10000; omega
  | ⟨1, _⟩ => show win3_4.index t (1 : Fin 2) * 64 ≤ (i 1).val ∧ (i 1).val < win3_4.index t (1 : Fin 2) * 64 + 64; omega

/-- The array the region leaves: the combination of the arrays it finds, with the weight column the vector w and the
    bias row the vector b. -/
theorem value (c : Dev nD) (w : Vec Ideal S50000 .f32) (b : Vec Ideal S64 .f32)
    (hw : V c main_v12 = shapeCast S50000x1 w Facts₀.shapeCasts_S50000_S50000x1)
    (hb : V c main_v73 = shapeCast S1x64 b Facts₀.shapeCasts_S64_S1x64) :
    (dat3 V c).arrAt 4 cfg3.N = Cert.Spec.combine (V c main_v72) (V c main_v44) w b :=
  (dat3 V c).arrAt_eq_of_cover 4 _ (fun t _ => flushed_eq V c w b hw hb t) cover

end Cert.KernelIdeal.Region3

end
-- ==== Proof.Region4.lean ====
/-
  The classifier head, in its one grid point.

  The kernel takes the pooled features P [256, 64], the weights W [64, 10] and the bias row [1, 10] whole, and writes the
  product plus the bias: entry (p, q) is Σ_l P(p, l)·W(l, q) + b(q). Its one block is the whole array, so the array
  the region leaves is the host's product plus the bias vector laid along every row, when the bias row is a vector b
  reshaped.
-/
import proofs.«164401_j41618233099022_1_alg».proof.Proof.Gen.KernelIdeal.Frame
import proofs.«164401_j41618233099022_1_alg».proof.Proof.Gen.ReferenceIdeal
import proofs.«164401_j41618233099022_1_alg».proof.Proof.Spec
import proofs.«164401_j41618233099022_1_alg».proof.Proof.LibDenseLayer
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region4

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's value at an entry: row p of P against column q of W, plus the bias row's entry q (the body's casts of a
    block to its own shape change nothing). -/
theorem pay_apply (v0 : Vec Ideal S256x64 .f32) (v3 : Vec Ideal S64x10 .f32) (v6 : Vec Ideal S1x10 .f32)
    (p : Fin 256) (q : Fin 10) :
    k4_pay1 v0 v3 v6 (ix2 p q) = (∑ l : Fin 64, v0 (ix2 p l) * v3 (ix2 l q)) + v6 (ix2 (0 : Fin 1) q) := by
  have e : k4_pay1 v0 v3 v6 = addf (matmul dot_S256x64_S64x10_S256x10_1_0_0_1_n_n none
      (shapeCast S256x64 v0 Facts₀.shapeCasts_S256x64_S256x64) v3 (constant S256x10 .f32 0x00000000#32))
      (broadcastTo S256x10 (shapeCast S1x10 v6 Facts₀.shapeCasts_S1x10_S1x10) Facts₀.broadcasts_S1x10_S256x10) := rfl
  rw [e]
  simp only [shapeCast_self]
  show matmul (F := Ideal) dot_S256x64_S64x10_S256x10_1_0_0_1_n_n none v0 v3 (constant (F := Ideal) S256x10 .f32 0x00000000#32) (ix2 p q)
      + broadcastTo S256x10 v6 Facts₀.broadcasts_S1x10_S256x10 (ix2 p q) = _
  rw [broadcastTo_1b_ab_apply]
  exact congrArg (· + v6 (ix2 (0 : Fin 1) q))
    (DenseLayer.matmul_rows_apply (m := 256) (k := 64) (n := 10) Facts₀.dot_S256x64_S64x10_S256x10_1_0_0_1_n_n_wf none v0 v3 p q)

/-- The host's spelling at an entry. -/
theorem spec_apply (P : Vec Ideal S256x64 .f32) (W : Vec Ideal S64x10 .f32) (b : Vec Ideal S10 .f32)
    (p : Fin 256) (q : Fin 10) :
    Cert.Spec.head P W b (ix2 p q) = (∑ l : Fin 64, P (ix2 p l) * W (ix2 l q)) + b (ix1 q) := by
  unfold Cert.Spec.head
  simp only [addf_apply]
  rw [DenseLayer.bias_inDim_apply]
  exact congrArg (· + b (ix1 q))
    (DenseLayer.dotGeneral_rows_apply (m := 256) (k := 64) (n := 10) Cert.ReferenceIdeal.Facts₀.dot_S256x64_S64x10_S256x10_1_0_0_1_n_n_wf none _ P W p q)

/-- The index maps at the one grid point: every window is its array's one block. -/
theorem idx_facts : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- What the point writes back is the host's spelling over the arrays the region finds, read through the one block. -/
theorem flushed_eq (c : Dev nD) (b : Vec Ideal S10 .f32)
    (hb : V c main_v87 = shapeCast S1x10 b Facts₀.shapeCasts_S10_S1x10) (t : Fin cfg4.N) :
    (dat4 V c).flushed 3 t
      = ((cfg4.win 3).blk t).view.read (Elt Ideal) (Cert.Spec.head (V c main_v86) (V c main_arg8) b) := by
  show (cfg4.win 3).cut (grid4.coords t) ((dat4 V c).after 3 t) = _
  rw [after4_3]
  unfold out4_3
  rw [View.canon_unit_zero hz]
  simp only [View.ld_unit_zero (S := S256x64) hz, View.ld_unit_zero (S := S64x10) hz, View.ld_unit_zero (S := S1x10) hz]
  obtain ⟨a0, a1, b0, b1, c0, c1, d0, d1⟩ := idx_facts t
  funext j
  obtain ⟨p, q, rfl⟩ : ∃ (p : Fin 256) (q : Fin 10), j = ix2 p q := ⟨j 0, j 1, eq_ix2 j⟩
  show k4_pay1 (iblk4 V c 0 t) (iblk4 V c 1 t) (iblk4 V c 2 t) (ix2 p q)
      = Cert.Spec.head (V c main_v86) (V c main_arg8) b (((cfg4.win 3).blk t).view.emb (ix2 p q))
  rw [pay_apply]
  have hi : ((cfg4.win 3).blk t).view.emb (ix2 p q) = ix2 p q := by
    funext a; apply Fin.ext
    match a with
    | ⟨0, _⟩ => show win4_3.index t (0 : Fin 2) * 256 + 1 * p.val = p.val; omega
    | ⟨1, _⟩ => show win4_3.index t (1 : Fin 2) * 10 + 1 * q.val = q.val; omega
  rw [hi, spec_apply]
  have h2 : iblk4 V c 2 t (ix2 (0 : Fin 1) q) = b (ix1 q) := by
    show V c main_v87 (((cfg4.win 2).blk t).view.emb (ix2 (0 : Fin 1) q)) = _
    rw [hb]
    refine Eq.trans (congrArg _ ?_) (shapeCast_a_1a_apply b Facts₀.shapeCasts_S10_S1x10 (0 : Fin 1) q)
    funext a; apply Fin.ext
    match a with
    | ⟨0, _⟩ => show win4_2.index t (0 : Fin 2) * 1 + 1 * 0 = 0; omega
    | ⟨1, _⟩ => show win4_2.index t (1 : Fin 2) * 10 + 1 * q.val = q.val; omega
  rw [h2]
  refine congrArg (· + b (ix1 q)) (Finset.sum_congr rfl fun l _ => ?_)
  have hx : iblk4 V c 0 t (ix2 p l) = V c main_v86 (ix2 p l) := by
    show V c main_v86 (((cfg4.win 0).blk t).view.emb (ix2 p l)) = _
    refine congrArg _ ?_
    funext a; apply Fin.ext
    match a with
    | ⟨0, _⟩ => show win4_0.index t (0 : Fin 2) * 256 + 1 * p.val = p.val; omega
    | ⟨1, _⟩ => show win4_0.index t (1 : Fin 2) * 64 + 1 * l.val = l.val; omega
  have hw : iblk4 V c 1 t (ix2 l q) = V c main_arg8 (ix2 l q) := by
    show V c main_arg8 (((cfg4.win 1).blk t).view.emb (ix2 l q)) = _
    refine congrArg _ ?_
    funext a; apply Fin.ext
    match a with
    | ⟨0, _⟩ => show win4_1.index t (0 : Fin 2) * 64 + 1 * l.val = l.val; omega
    | ⟨1, _⟩ => show win4_1.index t (1 : Fin 2) * 10 + 1 * q.val = q.val; omega
  rw [hx, hw]

/-- An index of the result array is in the point's block iff each coordinate is in the block's range. -/
theorem mem_blk (t : Fin cfg4.N) (i : S256x10.Idx) :
    i ∈ ((cfg4.win 3).blk t).view.set ↔ ∀ a : Fin 2, win4_3.index t a * S256x10.size a ≤ (i a).val ∧ (i a).val < win4_3.index t a * S256x10.size a + S256x10.size a := by
  show i ∈ ((View.whole main_v88).slice (win4_3.rect t)).set ↔ _
  rw [View.set_slice_whole, Rect.mem_set_unit]
  exact Iff.rfl

/-- The one block covers the array. -/
theorem cover (i : S256x10.Idx) :
    ∃ t : Fin cfg4.N, (cfg4.win 3).flush t = true ∧ i ∈ ((cfg4.win 3).blk t).view.set := by
  have hi0 : (i 0).val < 256 := (i 0).isLt
  have hi1 : (i 1).val < 10 := (i 1).isLt
  obtain ⟨a0, a1, b0, b1, c0, c1, d0, d1⟩ := idx_facts t4_0
  refine ⟨t4_0, flush4_3 t4_0, ?_⟩
  rw [mem_blk]
  intro a
  match a with
  | ⟨0, _⟩ => show win4_3.index t4_0 (0 : Fin 2) * 256 ≤ (i 0).val ∧ (i 0).val < win4_3.index t4_0 (0 : Fin 2) * 256 + 256; omega
  | ⟨1, _⟩ => show win4_3.index t4_0 (1 : Fin 2) * 10 ≤ (i 1).val ∧ (i 1).val < win4_3.index t4_0 (1 : Fin 2) * 10 + 10; omega

/-- The array the region leaves: the head of the arrays it finds, with the bias row the vector b. -/
theorem value (c : Dev nD) (b : Vec Ideal S10 .f32)
    (hb : V c main_v87 = shapeCast S1x10 b Facts₀.shapeCasts_S10_S1x10) :
    (dat4 V c).arrAt 3 cfg4.N = Cert.Spec.head (V c main_v86) (V c main_arg8) b :=
  (dat4 V c).arrAt_eq_of_cover 3 _ (fun t _ => flushed_eq V c b hb t) cover

end Cert.KernelIdeal.Region4

end
-- ==== Proof.KernelChain.lean ====
/-
  The kernel program's result, boundary by boundary of its main function.

  Between its five kernel regions the program runs the same host operations as the reference: the degrees and their
  inverse square roots before the first region, the gather of source rows, their scaling by the edge weights and the sum at
  the destinations before each combine, the pooling before the head. Each region's array is the matching stage of the
  network (Region0 … Region4). Reading every buffer a later stage needs at every boundary, the result array ends at the
  network of the arguments.
-/
import proofs.«164401_j41618233099022_1_alg».proof.Proof.Gen.KernelIdeal.Frame
import proofs.«164401_j41618233099022_1_alg».proof.Proof.Gen.ReferenceIdeal
import proofs.«164401_j41618233099022_1_alg».proof.Proof.Spec
import proofs.«164401_j41618233099022_1_alg».proof.Proof.Stretches
import proofs.«164401_j41618233099022_1_alg».proof.Proof.StretchPass
import proofs.«164401_j41618233099022_1_alg».proof.Proof.ChainPass
import proofs.«164401_j41618233099022_1_alg».proof.Proof.Region0
import proofs.«164401_j41618233099022_1_alg».proof.Proof.Region1
import proofs.«164401_j41618233099022_1_alg».proof.Proof.Region2
import proofs.«164401_j41618233099022_1_alg».proof.Proof.Region3
import proofs.«164401_j41618233099022_1_alg».proof.Proof.Region4
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen

variable (m : (ℓ : Loc nD τ sig) → Buf (Elt Ideal) ℓ) (ρ : Dev nD → PrngReg) (c : Dev nD)

/-! ## After the first region: the first layer's product -/

theorem W2_v13 : (W2 m ρ c (Proc.devRef .tc main_v13) : Vec Ideal S50000x64 .f32)
    = Cert.Spec.lin1 (m ((c : Thread nD τ).loc main_arg0)) (m ((c : Thread nD τ).loc main_arg4)) := by
  refine (W2_arr m ρ c 2).trans ?_
  rw [Region0.value (V1 m ρ) c]
  show Cert.Spec.lin1 (W1 m ρ c (Proc.devRef .tc main_arg0)) (W1 m ρ c (Proc.devRef .tc main_arg4)) = _
  rw [W1_arg0, W1_arg4]

/-! ## Before the second region: the messages summed at their destinations, the bias as a row -/

theorem W3_v41 : (W3 m ρ c (Proc.devRef .tc main_v41) : Vec Ideal S50000x64 .f32)
    = Cert.Spec.aggr (m ((c : Thread nD τ).loc main_arg1)) (Cert.Spec.lin1 (m ((c : Thread nD τ).loc main_arg0)) (m ((c : Thread nD τ).loc main_arg4))) := by
  refine (Stretch.s1_v41 (W2 m ρ c)).trans ?_
  rw [W2_v1, W2_v3, W2_v10, W2_v13]
  rfl

theorem W3_v42 : (W3 m ρ c (Proc.devRef .tc main_v42) : Vec Ideal S1x64 .f32)
    = shapeCast S1x64 (m ((c : Thread nD τ).loc main_arg5)) Facts₀.shapeCasts_S64_S1x64 := by
  refine (Stretch.s1_v42 (W2 m ρ c)).trans ?_
  rw [W2_arg5]

theorem W3_v13 : (W3 m ρ c (Proc.devRef .tc main_v13) : Vec Ideal S50000x64 .f32)
    = Cert.Spec.lin1 (m ((c : Thread nD τ).loc main_arg0)) (m ((c : Thread nD τ).loc main_arg4)) :=
  (Stretch.s1_v13 (W2 m ρ c)).trans (W2_v13 m ρ c)

/-! ## After the second region: the node features after the first layer -/

theorem W4_v43 : (W4 m ρ c (Proc.devRef .tc main_v43) : Vec Ideal S50000x64 .f32)
    = Cert.Spec.hidden1 (m ((c : Thread nD τ).loc main_arg0)) (m ((c : Thread nD τ).loc main_arg1)) (m ((c : Thread nD τ).loc main_arg4)) (m ((c : Thread nD τ).loc main_arg5)) := by
  refine (W4_arr m ρ c 4).trans ?_
  rw [Region1.value (V3 m ρ) c (Cert.Spec.selfw (m ((c : Thread nD τ).loc main_arg1))) (m ((c : Thread nD τ).loc main_arg5)) (W3_v12 m ρ c) (W3_v42 m ρ c)]
  show Cert.Spec.relu (Cert.Spec.combine (W3 m ρ c (Proc.devRef .tc main_v41)) (W3 m ρ c (Proc.devRef .tc main_v13)) _ _) = _
  rw [W3_v41, W3_v13]
  rfl

/-! ## After the third region: the second layer's product -/

theorem W5_v44 : (W5 m ρ c (Proc.devRef .tc main_v44) : Vec Ideal S50000x64 .f32)
    = Cert.Spec.lin2 (Cert.Spec.hidden1 (m ((c : Thread nD τ).loc main_arg0)) (m ((c : Thread nD τ).loc main_arg1)) (m ((c : Thread nD τ).loc main_arg4)) (m ((c : Thread nD τ).loc main_arg5))) (m ((c : Thread nD τ).loc main_arg6)) := by
  refine (W5_arr m ρ c 2).trans ?_
  rw [Region2.value (V4 m ρ) c]
  show Cert.Spec.lin2 (W4 m ρ c (Proc.devRef .tc main_v43)) (W4 m ρ c (Proc.devRef .tc main_arg6)) = _
  rw [W4_v43, W4_arg6]

/-! ## Before the fourth region: the messages summed at their destinations, the bias as a row -/

theorem W6_v72 : (W6 m ρ c (Proc.devRef .tc main_v72) : Vec Ideal S50000x64 .f32)
    = Cert.Spec.aggr (m ((c : Thread nD τ).loc main_arg1)) (Cert.Spec.lin2 (Cert.Spec.hidden1 (m ((c : Thread nD τ).loc main_arg0)) (m ((c : Thread nD τ).loc main_arg1)) (m ((c : Thread nD τ).loc main_arg4)) (m ((c : Thread nD τ).loc main_arg5))) (m ((c : Thread nD τ).loc main_arg6))) := by
  refine (Stretch.s3_v72 (W5 m ρ c)).trans ?_
  rw [W5_v1, W5_v3, W5_v10, W5_v44]
  rfl

theorem W6_v73 : (W6 m ρ c (Proc.devRef .tc main_v73) : Vec Ideal S1x64 .f32)
    = shapeCast S1x64 (m ((c : Thread nD τ).loc main_arg7)) Facts₀.shapeCasts_S64_S1x64 := by
  refine (Stretch.s3_v73 (W5 m ρ c)).trans ?_
  rw [W5_arg7]

theorem W6_v44 : (W6 m ρ c (Proc.devRef .tc main_v44) : Vec Ideal S50000x64 .f32)
    = Cert.Spec.lin2 (Cert.Spec.hidden1 (m ((c : Thread nD τ).loc main_arg0)) (m ((c : Thread nD τ).loc main_arg1)) (m ((c : Thread nD τ).loc main_arg4)) (m ((c : Thread nD τ).loc main_arg5))) (m ((c : Thread nD τ).loc main_arg6)) :=
  (Stretch.s3_v44 (W5 m ρ c)).trans (W5_v44 m ρ c)

/-! ## After the fourth region: the node features after the second layer -/

theorem W7_v74 : (W7 m ρ c (Proc.devRef .tc main_v74) : Vec Ideal S50000x64 .f32)
    = Cert.Spec.hidden2 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) := by
  refine (W7_arr m ρ c 4).trans ?_
  rw [Region3.value (V6 m ρ) c (Cert.Spec.selfw (m ((c : Thread nD τ).loc main_arg1))) (m ((c : Thread nD τ).loc main_arg7)) (W6_v12 m ρ c) (W6_v73 m ρ c)]
  show Cert.Spec.combine (W6 m ρ c (Proc.devRef .tc main_v72)) (W6 m ρ c (Proc.devRef .tc main_v44)) _ _ = _
  rw [W6_v72, W6_v44]
  rfl

/-! ## Before the last region: the mean over each graph's nodes, the head's bias as a row -/

theorem W8_v86 : (W8 m ρ c (Proc.devRef .tc main_v86) : Vec Ideal S256x64 .f32)
    = Cert.Spec.pool (m ((c : Thread nD τ).loc main_arg3)) (Cert.Spec.hidden2 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) := by
  refine (Stretch.s4_v86 (W7 m ρ c)).trans ?_
  rw [W7_arg3, W7_v74]

theorem W8_v87 : (W8 m ρ c (Proc.devRef .tc main_v87) : Vec Ideal S1x10 .f32)
    = shapeCast S1x10 (m ((c : Thread nD τ).loc main_arg9)) Facts₀.shapeCasts_S10_S1x10 := by
  refine (Stretch.s4_v87 (W7 m ρ c)).trans ?_
  rw [W7_arg9]

/-! ## After the last region: the network of the arguments -/

/-- The result array at the last boundary is the network of the arguments. -/
theorem W9_v88 : (W9 m ρ c (Proc.devRef .tc main_v88) : Vec Ideal S256x10 .f32)
    = Cert.Spec.out (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W9_arr m ρ c 3).trans ?_
  rw [Region4.value (V8 m ρ) c (m ((c : Thread nD τ).loc main_arg9)) (W8_v87 m ρ c)]
  show Cert.Spec.head (W8 m ρ c (Proc.devRef .tc main_v86)) (W8 m ρ c (Proc.devRef .tc main_arg8)) _ = _
  rw [W8_v86, W8_arg8]
  rfl

end Cert.KernelIdeal.Chain

end
-- ==== Proof.lean ====
/-
  A two-layer graph convolution network with mean pooling and a linear head, computed two ways.

  The kernel program runs the three matrix products (features × weights of each layer, pooled features × head weights)
  and the two "messages + self-loop share + bias" combinations in five kernel regions, tiled over blocks of 10000 nodes,
  and leaves the degree counts, the gather of source rows, the scatter-sum at the destinations and the pooling to host
  operations. The reference runs everything as host operations. At the ideal values (exact extended reals, a change of
  float format the identity) a kernel product into a zero accumulator is the host's product, a kernel's elementwise
  combination over a block is the host's over the rows of that block, and the blocks tile the arrays; the host
  operations between the regions are the reference's own. So both programs end with the same function of the arguments
  (Spec.lean's `out`): no law of arithmetic is used beyond reading both sides entry by entry, and finiteness of the
  inputs is never needed.

  Frames: the two kernel programs' are generated; the reference's is its run with the result dropped. The idealization
  rewrote nothing, so `preserves` is trivial.
-/
import proofs.«164401_j41618233099022_1_alg».proof.Defs
import proofs.«164401_j41618233099022_1_alg».proof.Proof.Gen.Kernel
import proofs.«164401_j41618233099022_1_alg».proof.Proof.Gen.Kernel.Skeleton
import proofs.«164401_j41618233099022_1_alg».proof.Proof.Gen.Kernel.Launch
import proofs.«164401_j41618233099022_1_alg».proof.Proof.Gen.Kernel.Points
import proofs.«164401_j41618233099022_1_alg».proof.Proof.Gen.Kernel.Frame
import proofs.«164401_j41618233099022_1_alg».proof.Proof.Gen.KernelIdeal
import proofs.«164401_j41618233099022_1_alg».proof.Proof.Gen.KernelIdeal.Skeleton
import proofs.«164401_j41618233099022_1_alg».proof.Proof.Gen.KernelIdeal.Launch
import proofs.«164401_j41618233099022_1_alg».proof.Proof.Gen.KernelIdeal.Points
import proofs.«164401_j41618233099022_1_alg».proof.Proof.Gen.KernelIdeal.Frame
import proofs.«164401_j41618233099022_1_alg».proof.Proof.Gen.ReferenceIdeal
import proofs.«164401_j41618233099022_1_alg».proof.Proof.Gen.ReferenceIdeal.Run
import proofs.«164401_j41618233099022_1_alg».proof.Proof.Gen.Pre_finite_inputs
import proofs.«164401_j41618233099022_1_alg».proof.Proof.Spec
import proofs.«164401_j41618233099022_1_alg».proof.Proof.RefSide
import proofs.«164401_j41618233099022_1_alg».proof.Proof.KernelRun
import proofs.«164401_j41618233099022_1_alg».proof.Proof.KernelChain
import Idealize.ShloMosaic.Adequacy
import Idealize.ShloMosaic.Init

noncomputable section

namespace Cert.Proof

open Idealize.ShloMosaic Idealize.SL.Sem

/-- The kernel program as printed terminates without a fault and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- And the reference: its run, with what it says about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the network of the arguments: the kernel program by its run and the chain of its
    boundaries, the reference by its run and its composed term. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Chain.W9_v88 m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.RefSide.result_eq]
    obtain ⟨e0, e1, e2, e3, e4, e5, e6, e7, e8, e9⟩ := hagree c
    rw [e0, e1, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
